-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096 : Shape := ⟨2, ![128, 4096]⟩
abbrev S512x11008 : Shape := ⟨2, ![512, 11008]⟩
abbrev S32x11008 : Shape := ⟨2, ![32, 11008]⟩
abbrev S_ : Shape := ⟨0, ![]⟩

class Facts : Prop where
  bcast_S_S128x4096 : S_.BroadcastsInDim S128x4096 (![] : Fin 0 → Fin S128x4096.rank)
  reducesTo_S128x4096_S_d0_1 : S128x4096.ReducesTo [0, 1] S_
  h_S_ : 0 < S_.numel
  bcast_S_S32x11008 : S_.BroadcastsInDim S32x11008 (![] : Fin 0 → Fin S32x11008.rank)
  reducesTo_S32x11008_S_d0_1 : S32x11008.ReducesTo [0, 1] S_

variable [Facts]

def fn {F : FTy → Type} [FloatOps F] (main_arg0 : FVec F S128x4096 .f32) (main_arg1 : IVec S512x11008 32) (main_arg2 : FVec F S32x11008 .f32) (main_arg3 : FVec F S32x11008 .f32) : IVec S_ 1 :=
  let main_v0 : FVec F S128x4096 .f32 := Host.absf main_arg0
  let main_cst : FVec F S_ .f32 := constant S_ .f32 0x7F800000#32
  let main_v1 : FVec F S128x4096 .f32 := broadcastInDim S128x4096 ![] bcast_S_S128x4096 main_cst
  let main_v2 : IVec S128x4096 1 := cmpf .olt main_v0 main_v1
  let main_c : IVec S_ 1 := constantI S_ 1 1#1
  let main_v3 : IVec S_ 1 := (fun x v => Host.reduce IntOp.andi x v reducesTo_S128x4096_S_d0_1 h_S_) main_v2 main_c
  let main_v4 : FVec F S32x11008 .f32 := Host.absf main_arg2
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S32x11008 .f32 := Host.absf main_arg3
  let main_cst_2 : FVec F S_ .f32 := constant S_ .f32 0x7F800000#32
  let main_v10 : FVec F S32x11008 .f32 := broadcastInDim S32x11008 ![] bcast_S_S32x11008 main_cst_2
  let main_v11 : IVec S32x11008 1 := cmpf .olt main_v9 main_v10
  let main_c_3 : IVec S_ 1 := constantI S_ 1 1#1
  let main_v12 : IVec S_ 1 := (fun x v => Host.reduce IntOp.andi x v reducesTo_S32x11008_S_d0_1 h_S_) main_v11 main_c_3
  let main_v13 : IVec S_ 1 := andi main_v8 main_v12
  main_v13
-- ==== Kernel.lean ====
abbrev S128x4096 : Shape := ⟨2, ![128, 4096]⟩
abbrev S512x11008 : Shape := ⟨2, ![512, 11008]⟩
abbrev S32x11008 : Shape := ⟨2, ![32, 11008]⟩
abbrev S128x11008 : Shape := ⟨2, ![128, 11008]⟩
abbrev S512x256 : Shape := ⟨2, ![512, 256]⟩
abbrev S32x256 : Shape := ⟨2, ![32, 256]⟩
abbrev S128x256 : Shape := ⟨2, ![128, 256]⟩
abbrev S4096x256 : Shape := ⟨2, ![4096, 256]⟩
abbrev S1x8x1 : Shape := ⟨3, ![1, 8, 1]⟩
abbrev S16x256 : Shape := ⟨2, ![16, 256]⟩
abbrev S16x1x256 : Shape := ⟨3, ![16, 1, 256]⟩
abbrev S16x8x256 : Shape := ⟨3, ![16, 8, 256]⟩
abbrev S1x256 : Shape := ⟨2, ![1, 256]⟩
abbrev S256 : Shape := ⟨1, ![256]⟩

abbrev nBuf : Space → Nat
  | .hbm => 6
  | .vmem => 10
  | .smem => 0
  | _ => 0

abbrev bufTy : (tb : Table) → Fin (tcTables nBuf tb) → BufTy
  | .hbm, ⟨0, _⟩ => ⟨S128x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S128x4096, .bf16⟩
  | .hbm, ⟨5, _⟩ => ⟨S128x11008, .f32⟩
  | .local _ .vmem, ⟨0, _⟩ => ⟨S128x4096, .bf16⟩
  | .local _ .vmem, ⟨1, _⟩ => ⟨S512x256, .i32⟩
  | .local _ .vmem, ⟨2, _⟩ => ⟨S512x256, .i32⟩
  | .local _ .vmem, ⟨3, _⟩ => ⟨S32x256, .f32⟩
  | .local _ .vmem, ⟨4, _⟩ => ⟨S32x256, .f32⟩
  | .local _ .vmem, ⟨5, _⟩ => ⟨S32x256, .f32⟩
  | .local _ .vmem, ⟨6, _⟩ => ⟨S32x256, .f32⟩
  | .local _ .vmem, ⟨7, _⟩ => ⟨S128x256, .f32⟩
  | .local _ .vmem, ⟨8, _⟩ => ⟨S128x256, .f32⟩
  | .local _ .vmem, ⟨9, _⟩ => ⟨S4096x256, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  iota_S1x8x1_d1_w32 : S1x8x1.Iotas .tc 32 [1]
  inb_S512x256_S16x256_0_0 : ∀ a, (![0, 0] : Fin 2 → Nat) a + S16x256.size a ≤ S512x256.size a
  h_S16x256 : 0 < S16x256.numel
  shapeCasts_S16x256_S16x1x256 : S16x256.ShapeCasts S16x1x256
  broadcasts_S16x1x256_S16x8x256 : S16x1x256.Broadcasts S16x8x256
  broadcasts_S1x8x1_S16x8x256 : S1x8x1.Broadcasts S16x8x256
  shapeCasts_S16x8x256_S128x256 : S16x8x256.ShapeCasts S128x256
  inb_S32x256_S1x256_0_0 : ∀ a, (![0, 0] : Fin 2 → Nat) a + S1x256.size a ≤ S32x256.size a
  h_S1x256 : 0 < S1x256.numel
  shapeCasts_S1x256_S256 : S1x256.ShapeCasts S256
  shapeCasts_S256_S1x256 : S256.ShapeCasts S1x256
  broadcasts_S1x256_S128x256 : S1x256.Broadcasts S128x256
  inb_S4096x256_S128x256_0_0 : ∀ a, (![0, 0] : Fin 2 → Nat) a + S128x256.size a ≤ S4096x256.size a
  h_S128x256 : 0 < S128x256.numel
  shapeCasts_S128x256_S128x256 : S128x256.ShapeCasts S128x256
  packedbf16_S4096x256_S128x256_0_0 : (Rect.unit (s := S4096x256) ![0, 0] S128x256.size inb_S4096x256_S128x256_0_0).PackedRows (EltTy.packing .bf16)
  inb_S512x256_S16x256_16_0 : ∀ a, (![16, 0] : Fin 2 → Nat) a + S16x256.size a ≤ S512x256.size a
  inb_S32x256_S1x256_1_0 : ∀ a, (![1, 0] : Fin 2 → Nat) a + S1x256.size a ≤ S32x256.size a
  inb_S4096x256_S128x256_128_0 : ∀ a, (![128, 0] : Fin 2 → Nat) a + S128x256.size a ≤ S4096x256.size a
  packedbf16_S4096x256_S128x256_128_0 : (Rect.unit (s := S4096x256) ![128, 0] S128x256.size inb_S4096x256_S128x256_128_0).PackedRows (EltTy.packing .bf16)
  inb_S512x256_S16x256_32_0 : ∀ a, (![32, 0] : Fin 2 → Nat) a + S16x256.size a ≤ S512x256.size a
  inb_S32x256_S1x256_2_0 : ∀ a, (![2, 0] : Fin 2 → Nat) a + S1x256.size a ≤ S32x256.size a
  inb_S4096x256_S128x256_256_0 : ∀ a, (![256, 0] : Fin 2 → Nat) a + S128x256.size a ≤ S4096x256.size a
  packedbf16_S4096x256_S128x256_256_0 : (Rect.unit (s := S4096x256) ![256, 0] S128x256.size inb_S4096x256_S128x256_256_0).PackedRows (EltTy.packing .bf16)
  inb_S512x256_S16x256_48_0 : ∀ a, (![48, 0] : Fin 2 → Nat) a + S16x256.size a ≤ S512x256.size a
  inb_S32x256_S1x256_3_0 : ∀ a, (![3, 0] : Fin 2 → Nat) a + S1x256.size a ≤ S32x256.size a
  inb_S4096x256_S128x256_384_0 : ∀ a, (![384, 0] : Fin 2 → Nat) a + S128x256.size a ≤ S4096x256.size a
  packedbf16_S4096x256_S128x256_384_0 : (Rect.unit (s := S4096x256) ![384, 0] S128x256.size inb_S4096x256_S128x256_384_0).PackedRows (EltTy.packing .bf16)
  inb_S512x256_S16x256_64_0 : ∀ a, (![64, 0] : Fin 2 → Nat) a + S16x256.size a ≤ S512x256.size a
  inb_S32x256_S1x256_4_0 : ∀ a, (![4, 0] : Fin 2 → Nat) a + S1x256.size a ≤ S32x256.size a
  inb_S4096x256_S128x256_512_0 : ∀ a, (![512, 0] : Fin 2 → Nat) a + S128x256.size a ≤ S4096x256.size a
  packedbf16_S4096x256_S128x256_512_0 : (Rect.unit (s := S4096x256) ![512, 0] S128x256.size inb_S4096x256_S128x256_512_0).PackedRows (EltTy.packing .bf16)
  inb_S512x256_S16x256_80_0 : ∀ a, (![80, 0] : Fin 2 → Nat) a + S16x256.size a ≤ S512x256.size a
  inb_S32x256_S1x256_5_0 : ∀ a, (![5, 0] : Fin 2 → Nat) a + S1x256.size a ≤ S32x256.size a
  inb_S4096x256_S128x256_640_0 : ∀ a, (![640, 0] : Fin 2 → Nat) a + S128x256.size a ≤ S4096x256.size a
  packedbf16_S4096x256_S128x256_640_0 : (Rect.unit (s := S4096x256) ![640, 0] S128x256.size inb_S4096x256_S128x256_640_0).PackedRows (EltTy.packing .bf16)
  inb_S512x256_S16x256_96_0 : ∀ a, (![96, 0] : Fin 2 → Nat) a + S16x256.size a ≤ S512x256.size a
  inb_S32x256_S1x256_6_0 : ∀ a, (![6, 0] : Fin 2 → Nat) a + S1x256.size a ≤ S32x256.size a
  inb_S4096x256_S128x256_768_0 : ∀ a, (![768, 0] : Fin 2 → Nat) a + S128x256.size a ≤ S4096x256.size a
  packedbf16_S4096x256_S128x256_768_0 : (Rect.unit (s := S4096x256) ![768, 0] S128x256.size inb_S4096x256_S128x256_768_0).PackedRows (EltTy.packing .bf16)
  inb_S512x256_S16x256_112_0 : ∀ a, (![112, 0] : Fin 2 → Nat) a + S16x256.size a ≤ S512x256.size a
  inb_S32x256_S1x256_7_0 : ∀ a, (![7, 0] : Fin 2 → Nat) a + S1x256.size a ≤ S32x256.size a
  inb_S4096x256_S128x256_896_0 : ∀ a, (![896, 0] : Fin 2 → Nat) a + S128x256.size a ≤ S4096x256.size a
  packedbf16_S4096x256_S128x256_896_0 : (Rect.unit (s := S4096x256) ![896, 0] S128x256.size inb_S4096x256_S128x256_896_0).PackedRows (EltTy.packing .bf16)
  inb_S512x256_S16x256_128_0 : ∀ a, (![128, 0] : Fin 2 → Nat) a + S16x256.size a ≤ S512x256.size a
  inb_S32x256_S1x256_8_0 : ∀ a, (![8, 0] : Fin 2 → Nat) a + S1x256.size a ≤ S32x256.size a
  inb_S4096x256_S128x256_1024_0 : ∀ a, (![1024, 0] : Fin 2 → Nat) a + S128x256.size a ≤ S4096x256.size a
  packedbf16_S4096x256_S128x256_1024_0 : (Rect.unit (s := S4096x256) ![1024, 0] S128x256.size inb_S4096x256_S128x256_1024_0).PackedRows (EltTy.packing .bf16)
  inb_S512x256_S16x256_144_0 : ∀ a, (![144, 0] : Fin 2 → Nat) a + S16x256.size a ≤ S512x256.size a
  inb_S32x256_S1x256_9_0 : ∀ a, (![9, 0] : Fin 2 → Nat) a + S1x256.size a ≤ S32x256.size a
  inb_S4096x256_S128x256_1152_0 : ∀ a, (![1152, 0] : Fin 2 → Nat) a + S128x256.size a ≤ S4096x256.size a
  packedbf16_S4096x256_S128x256_1152_0 : (Rect.unit (s := S4096x256) ![1152, 0] S128x256.size inb_S4096x256_S128x256_1152_0).PackedRows (EltTy.packing .bf16)
  inb_S512x256_S16x256_160_0 : ∀ a, (![160, 0] : Fin 2 → Nat) a + S16x256.size a ≤ S512x256.size a
  inb_S32x256_S1x256_10_0 : ∀ a, (![10, 0] : Fin 2 → Nat) a + S1x256.size a ≤ S32x256.size a
  inb_S4096x256_S128x256_1280_0 : ∀ a, (![1280, 0] : Fin 2 → Nat) a + S128x256.size a ≤ S4096x256.size a
  packedbf16_S4096x256_S128x256_1280_0 : (Rect.unit (s := S4096x256) ![1280, 0] S128x256.size inb_S4096x256_S128x256_1280_0).PackedRows (EltTy.packing .bf16)
  inb_S512x256_S16x256_176_0 : ∀ a, (![176, 0] : Fin 2 → Nat) a + S16x256.size a ≤ S512x256.size a
  inb_S32x256_S1x256_11_0 : ∀ a, (![11, 0] : Fin 2 → Nat) a + S1x256.size a ≤ S32x256.size a
  inb_S4096x256_S128x256_1408_0 : ∀ a, (![1408, 0] : Fin 2 → Nat) a + S128x256.size a ≤ S4096x256.size a
  packedbf16_S4096x256_S128x256_1408_0 : (Rect.unit (s := S4096x256) ![1408, 0] S128x256.size inb_S4096x256_S128x256_1408_0).PackedRows (EltTy.packing .bf16)
  inb_S512x256_S16x256_192_0 : ∀ a, (![192, 0] : Fin 2 → Nat) a + S16x256.size a ≤ S512x256.size a
  inb_S32x256_S1x256_12_0 : ∀ a, (![12, 0] : Fin 2 → Nat) a + S1x256.size a ≤ S32x256.size a
  inb_S4096x256_S128x256_1536_0 : ∀ a, (![1536, 0] : Fin 2 → Nat) a + S128x256.size a ≤ S4096x256.size a
  packedbf16_S4096x256_S128x256_1536_0 : (Rect.unit (s := S4096x256) ![1536, 0] S128x256.size inb_S4096x256_S128x256_1536_0).PackedRows (EltTy.packing .bf16)
  inb_S512x256_S16x256_208_0 : ∀ a, (![208, 0] : Fin 2 → Nat) a + S16x256.size a ≤ S512x256.size a
  inb_S32x256_S1x256_13_0 : ∀ a, (![13, 0] : Fin 2 → Nat) a + S1x256.size a ≤ S32x256.size a
  inb_S4096x256_S128x256_1664_0 : ∀ a, (![1664, 0] : Fin 2 → Nat) a + S128x256.size a ≤ S4096x256.size a
  packedbf16_S4096x256_S128x256_1664_0 : (Rect.unit (s := S4096x256) ![1664, 0] S128x256.size inb_S4096x256_S128x256_1664_0).PackedRows (EltTy.packing .bf16)
  inb_S512x256_S16x256_224_0 : ∀ a, (![224, 0] : Fin 2 → Nat) a + S16x256.size a ≤ S512x256.size a
  inb_S32x256_S1x256_14_0 : ∀ a, (![14, 0] : Fin 2 → Nat) a + S1x256.size a ≤ S32x256.size a
  inb_S4096x256_S128x256_1792_0 : ∀ a, (![1792, 0] : Fin 2 → Nat) a + S128x256.size a ≤ S4096x256.size a
  packedbf16_S4096x256_S128x256_1792_0 : (Rect.unit (s := S4096x256) ![1792, 0] S128x256.size inb_S4096x256_S128x256_1792_0).PackedRows (EltTy.packing .bf16)
  inb_S512x256_S16x256_240_0 : ∀ a, (![240, 0] : Fin 2 → Nat) a + S16x256.size a ≤ S512x256.size a
  inb_S32x256_S1x256_15_0 : ∀ a, (![15, 0] : Fin 2 → Nat) a + S1x256.size a ≤ S32x256.size a
  inb_S4096x256_S128x256_1920_0 : ∀ a, (![1920, 0] : Fin 2 → Nat) a + S128x256.size a ≤ S4096x256.size a
  packedbf16_S4096x256_S128x256_1920_0 : (Rect.unit (s := S4096x256) ![1920, 0] S128x256.size inb_S4096x256_S128x256_1920_0).PackedRows (EltTy.packing .bf16)
  inb_S512x256_S16x256_256_0 : ∀ a, (![256, 0] : Fin 2 → Nat) a + S16x256.size a ≤ S512x256.size a
  inb_S32x256_S1x256_16_0 : ∀ a, (![16, 0] : Fin 2 → Nat) a + S1x256.size a ≤ S32x256.size a
  inb_S4096x256_S128x256_2048_0 : ∀ a, (![2048, 0] : Fin 2 → Nat) a + S128x256.size a ≤ S4096x256.size a
  packedbf16_S4096x256_S128x256_2048_0 : (Rect.unit (s := S4096x256) ![2048, 0] S128x256.size inb_S4096x256_S128x256_2048_0).PackedRows (EltTy.packing .bf16)
  inb_S512x256_S16x256_272_0 : ∀ a, (![272, 0] : Fin 2 → Nat) a + S16x256.size a ≤ S512x256.size a
  inb_S32x256_S1x256_17_0 : ∀ a, (![17, 0] : Fin 2 → Nat) a + S1x256.size a ≤ S32x256.size a
  inb_S4096x256_S128x256_2176_0 : ∀ a, (![2176, 0] : Fin 2 → Nat) a + S128x256.size a ≤ S4096x256.size a
  packedbf16_S4096x256_S128x256_2176_0 : (Rect.unit (s := S4096x256) ![2176, 0] S128x256.size inb_S4096x256_S128x256_2176_0).PackedRows (EltTy.packing .bf16)
  inb_S512x256_S16x256_288_0 : ∀ a, (![288, 0] : Fin 2 → Nat) a + S16x256.size a ≤ S512x256.size a
  inb_S32x256_S1x256_18_0 : ∀ a, (![18, 0] : Fin 2 → Nat) a + S1x256.size a ≤ S32x256.size a
  inb_S4096x256_S128x256_2304_0 : ∀ a, (![2304, 0] : Fin 2 → Nat) a + S128x256.size a ≤ S4096x256.size a
  packedbf16_S4096x256_S128x256_2304_0 : (Rect.unit (s := S4096x256) ![2304, 0] S128x256.size inb_S4096x256_S128x256_2304_0).PackedRows (EltTy.packing .bf16)
  inb_S512x256_S16x256_304_0 : ∀ a, (![304, 0] : Fin 2 → Nat) a + S16x256.size a ≤ S512x256.size a
  inb_S32x256_S1x256_19_0 : ∀ a, (![19, 0] : Fin 2 → Nat) a + S1x256.size a ≤ S32x256.size a
  inb_S4096x256_S128x256_2432_0 : ∀ a, (![2432, 0] : Fin 2 → Nat) a + S128x256.size a ≤ S4096x256.size a
  packedbf16_S4096x256_S128x256_2432_0 : (Rect.unit (s := S4096x256) ![2432, 0] S128x256.size inb_S4096x256_S128x256_2432_0).PackedRows (EltTy.packing .bf16)
  inb_S512x256_S16x256_320_0 : ∀ a, (![320, 0] : Fin 2 → Nat) a + S16x256.size a ≤ S512x256.size a
  inb_S32x256_S1x256_20_0 : ∀ a, (![20, 0] : Fin 2 → Nat) a + S1x256.size a ≤ S32x256.size a
  inb_S4096x256_S128x256_2560_0 : ∀ a, (![2560, 0] : Fin 2 → Nat) a + S128x256.size a ≤ S4096x256.size a
  packedbf16_S4096x256_S128x256_2560_0 : (Rect.unit (s := S4096x256) ![2560, 0] S128x256.size inb_S4096x256_S128x256_2560_0).PackedRows (EltTy.packing .bf16)
  inb_S512x256_S16x256_336_0 : ∀ a, (![336, 0] : Fin 2 → Nat) a + S16x256.size a ≤ S512x256.size a
  inb_S32x256_S1x256_21_0 : ∀ a, (![21, 0] : Fin 2 → Nat) a + S1x256.size a ≤ S32x256.size a
  inb_S4096x256_S128x256_2688_0 : ∀ a, (![2688, 0] : Fin 2 → Nat) a + S128x256.size a ≤ S4096x256.size a
  packedbf16_S4096x256_S128x256_2688_0 : (Rect.unit (s := S4096x256) ![2688, 0] S128x256.size inb_S4096x256_S128x256_2688_0).PackedRows (EltTy.packing .bf16)
  inb_S512x256_S16x256_352_0 : ∀ a, (![352, 0] : Fin 2 → Nat) a + S16x256.size a ≤ S512x256.size a
  inb_S32x256_S1x256_22_0 : ∀ a, (![22, 0] : Fin 2 → Nat) a + S1x256.size a ≤ S32x256.size a
  inb_S4096x256_S128x256_2816_0 : ∀ a, (![2816, 0] : Fin 2 → Nat) a + S128x256.size a ≤ S4096x256.size a
  packedbf16_S4096x256_S128x256_2816_0 : (Rect.unit (s := S4096x256) ![2816, 0] S128x256.size inb_S4096x256_S128x256_2816_0).PackedRows (EltTy.packing .bf16)
  inb_S512x256_S16x256_368_0 : ∀ a, (![368, 0] : Fin 2 → Nat) a + S16x256.size a ≤ S512x256.size a
  inb_S32x256_S1x256_23_0 : ∀ a, (![23, 0] : Fin 2 → Nat) a + S1x256.size a ≤ S32x256.size a
  inb_S4096x256_S128x256_2944_0 : ∀ a, (![2944, 0] : Fin 2 → Nat) a + S128x256.size a ≤ S4096x256.size a
  packedbf16_S4096x256_S128x256_2944_0 : (Rect.unit (s := S4096x256) ![2944, 0] S128x256.size inb_S4096x256_S128x256_2944_0).PackedRows (EltTy.packing .bf16)
  inb_S512x256_S16x256_384_0 : ∀ a, (![384, 0] : Fin 2 → Nat) a + S16x256.size a ≤ S512x256.size a
  inb_S32x256_S1x256_24_0 : ∀ a, (![24, 0] : Fin 2 → Nat) a + S1x256.size a ≤ S32x256.size a
  inb_S4096x256_S128x256_3072_0 : ∀ a, (![3072, 0] : Fin 2 → Nat) a + S128x256.size a ≤ S4096x256.size a
  packedbf16_S4096x256_S128x256_3072_0 : (Rect.unit (s := S4096x256) ![3072, 0] S128x256.size inb_S4096x256_S128x256_3072_0).PackedRows (EltTy.packing .bf16)
  inb_S512x256_S16x256_400_0 : ∀ a, (![400, 0] : Fin 2 → Nat) a + S16x256.size a ≤ S512x256.size a
  inb_S32x256_S1x256_25_0 : ∀ a, (![25, 0] : Fin 2 → Nat) a + S1x256.size a ≤ S32x256.size a
  inb_S4096x256_S128x256_3200_0 : ∀ a, (![3200, 0] : Fin 2 → Nat) a + S128x256.size a ≤ S4096x256.size a
  packedbf16_S4096x256_S128x256_3200_0 : (Rect.unit (s := S4096x256) ![3200, 0] S128x256.size inb_S4096x256_S128x256_3200_0).PackedRows (EltTy.packing .bf16)
  inb_S512x256_S16x256_416_0 : ∀ a, (![416, 0] : Fin 2 → Nat) a + S16x256.size a ≤ S512x256.size a
  inb_S32x256_S1x256_26_0 : ∀ a, (![26, 0] : Fin 2 → Nat) a + S1x256.size a ≤ S32x256.size a
  inb_S4096x256_S128x256_3328_0 : ∀ a, (![3328, 0] : Fin 2 → Nat) a + S128x256.size a ≤ S4096x256.size a
  packedbf16_S4096x256_S128x256_3328_0 : (Rect.unit (s := S4096x256) ![3328, 0] S128x256.size inb_S4096x256_S128x256_3328_0).PackedRows (EltTy.packing .bf16)
  inb_S512x256_S16x256_432_0 : ∀ a, (![432, 0] : Fin 2 → Nat) a + S16x256.size a ≤ S512x256.size a
  inb_S32x256_S1x256_27_0 : ∀ a, (![27, 0] : Fin 2 → Nat) a + S1x256.size a ≤ S32x256.size a
  inb_S4096x256_S128x256_3456_0 : ∀ a, (![3456, 0] : Fin 2 → Nat) a + S128x256.size a ≤ S4096x256.size a
  packedbf16_S4096x256_S128x256_3456_0 : (Rect.unit (s := S4096x256) ![3456, 0] S128x256.size inb_S4096x256_S128x256_3456_0).PackedRows (EltTy.packing .bf16)
  inb_S512x256_S16x256_448_0 : ∀ a, (![448, 0] : Fin 2 → Nat) a + S16x256.size a ≤ S512x256.size a
  inb_S32x256_S1x256_28_0 : ∀ a, (![28, 0] : Fin 2 → Nat) a + S1x256.size a ≤ S32x256.size a
  inb_S4096x256_S128x256_3584_0 : ∀ a, (![3584, 0] : Fin 2 → Nat) a + S128x256.size a ≤ S4096x256.size a
  packedbf16_S4096x256_S128x256_3584_0 : (Rect.unit (s := S4096x256) ![3584, 0] S128x256.size inb_S4096x256_S128x256_3584_0).PackedRows (EltTy.packing .bf16)
  inb_S512x256_S16x256_464_0 : ∀ a, (![464, 0] : Fin 2 → Nat) a + S16x256.size a ≤ S512x256.size a
  inb_S32x256_S1x256_29_0 : ∀ a, (![29, 0] : Fin 2 → Nat) a + S1x256.size a ≤ S32x256.size a
  inb_S4096x256_S128x256_3712_0 : ∀ a, (![3712, 0] : Fin 2 → Nat) a + S128x256.size a ≤ S4096x256.size a
  packedbf16_S4096x256_S128x256_3712_0 : (Rect.unit (s := S4096x256) ![3712, 0] S128x256.size inb_S4096x256_S128x256_3712_0).PackedRows (EltTy.packing .bf16)
  inb_S512x256_S16x256_480_0 : ∀ a, (![480, 0] : Fin 2 → Nat) a + S16x256.size a ≤ S512x256.size a
  inb_S32x256_S1x256_30_0 : ∀ a, (![30, 0] : Fin 2 → Nat) a + S1x256.size a ≤ S32x256.size a
  inb_S4096x256_S128x256_3840_0 : ∀ a, (![3840, 0] : Fin 2 → Nat) a + S128x256.size a ≤ S4096x256.size a
  packedbf16_S4096x256_S128x256_3840_0 : (Rect.unit (s := S4096x256) ![3840, 0] S128x256.size inb_S4096x256_S128x256_3840_0).PackedRows (EltTy.packing .bf16)
  inb_S512x256_S16x256_496_0 : ∀ a, (![496, 0] : Fin 2 → Nat) a + S16x256.size a ≤ S512x256.size a
  inb_S32x256_S1x256_31_0 : ∀ a, (![31, 0] : Fin 2 → Nat) a + S1x256.size a ≤ S32x256.size a
  inb_S4096x256_S128x256_3968_0 : ∀ a, (![3968, 0] : Fin 2 → Nat) a + S128x256.size a ≤ S4096x256.size a
  packedbf16_S4096x256_S128x256_3968_0 : (Rect.unit (s := S4096x256) ![3968, 0] S128x256.size inb_S4096x256_S128x256_3968_0).PackedRows (EltTy.packing .bf16)
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x256_S4096x256_0_0 : ∀ a, (![0, 0] : Fin 2 → Nat) a + S4096x256.size a ≤ S4096x256.size a
  h_S4096x256 : 0 < S4096x256.numel
  inb_S128x256_S128x256_0_0 : ∀ a, (![0, 0] : Fin 2 → Nat) a + S128x256.size a ≤ S128x256.size a
  dot_S128x4096_S4096x256_S128x256_1_0_0_1_n_n_wf : DotDims.WF S128x4096 S4096x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .bf16 = 32 ∨ (Rect.block (s := S128x4096) S128x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x11008.size a
  hwx0_1 : ∀ i : grid0.Coords, EltTy.bits .i32 = 32 ∨ (Rect.block (s := S512x11008) S512x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S32x11008.size a
  hwx0_2 : ∀ i : grid0.Coords, EltTy.bits .f32 = 32 ∨ (Rect.block (s := S32x11008) S32x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x256.size a ≤ S32x11008.size a
  hwx0_3 : ∀ i : grid0.Coords, EltTy.bits .f32 = 32 ∨ (Rect.block (s := S32x11008) S32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x11008.size a
  hwx0_4 : ∀ i : grid0.Coords, EltTy.bits .f32 = 32 ∨ (Rect.block (s := S128x11008) S128x256.size (cc0_transform_4 i) (hinb0_4 i)).WholeWords (EltTy.packing .f32)

variable [Facts₀]

def dot_S128x4096_S4096x256_S128x256_1_0_0_1_n_n : DotDims S128x4096 S4096x256 S128x256 where
  lhsContracting := [1]
  rhsContracting := [0]
  lhsNonContracting := [0]
  rhsNonContracting := [1]
  lhsBatch := []
  rhsBatch := []
  wf := dot_S128x4096_S4096x256_S128x256_1_0_0_1_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S128x4096 : Shape := ⟨2, ![128, 4096]⟩
abbrev S512x11008 : Shape := ⟨2, ![512, 11008]⟩
abbrev S32x11008 : Shape := ⟨2, ![32, 11008]⟩
abbrev S8 : Shape := ⟨1, ![8]⟩
abbrev S_ : Shape := ⟨0, ![]⟩
abbrev S512x1x11008 : Shape := ⟨3, ![512, 1, 11008]⟩
abbrev S1x8x1 : Shape := ⟨3, ![1, 8, 1]⟩
abbrev S512x8x11008 : Shape := ⟨3, ![512, 8, 11008]⟩
abbrev S32x128x11008 : Shape := ⟨3, ![32, 128, 11008]⟩
abbrev S32x1x11008 : Shape := ⟨3, ![32, 1, 11008]⟩
abbrev S4096x11008 : Shape := ⟨2, ![4096, 11008]⟩
abbrev S128x11008 : Shape := ⟨2, ![128, 11008]⟩

abbrev nBuf : Space → Nat
  | .hbm => 29
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S512x11008, .i32⟩
  | .hbm, ⟨2, _⟩ => ⟨S32x11008, .f32⟩
  | .hbm, ⟨3, _⟩ => ⟨S32x11008, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S512x1x11008, .i32⟩
  | .hbm, ⟨12, _⟩ => ⟨S1x8x1, .i32⟩
  | .hbm, ⟨13, _⟩ => ⟨S512x8x11008, .i32⟩
  | .hbm, ⟨14, _⟩ => ⟨S512x8x11008, .i32⟩
  | .hbm, ⟨15, _⟩ => ⟨S512x8x11008, .i32⟩
  | .hbm, ⟨16, _⟩ => ⟨S_, .i32⟩
  | .hbm, ⟨17, _⟩ => ⟨S512x8x11008, .i32⟩
  | .hbm, ⟨18, _⟩ => ⟨S512x8x11008, .i32⟩
  | .hbm, ⟨19, _⟩ => ⟨S32x128x11008, .i32⟩
  | .hbm, ⟨20, _⟩ => ⟨S32x128x11008, .f32⟩
  | .hbm, ⟨21, _⟩ => ⟨S32x1x11008, .f32⟩
  | .hbm, ⟨22, _⟩ => ⟨S32x128x11008, .f32⟩
  | .hbm, ⟨23, _⟩ => ⟨S32x128x11008, .f32⟩
  | .hbm, ⟨24, _⟩ => ⟨S32x1x11008, .f32⟩
  | .hbm, ⟨25, _⟩ => ⟨S32x128x11008, .f32⟩
  | .hbm, ⟨26, _⟩ => ⟨S32x128x11008, .f32⟩
  | .hbm, ⟨27, _⟩ => ⟨S4096x11008, .f32⟩
  | .hbm, ⟨28, _⟩ => ⟨S128x11008, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S32x128x11008 : S512x8x11008.ShapeCasts S32x128x11008
  bcast_S32x11008_S32x1x11008_0_2 : S32x11008.BroadcastsInDim S32x1x11008 (![0, 2] : Fin 2 → Fin S32x1x11008.rank)
  bcast_S32x1x11008_S32x128x11008_0_1_2 : S32x1x11008.BroadcastsInDim S32x128x11008 (![0, 1, 2] : Fin 3 → Fin S32x128x11008.rank)
  shapeCasts_S32x128x11008_S4096x11008 : S32x128x11008.ShapeCasts S4096x11008
  dot_S128x4096_S4096x11008_S128x11008_1_0_0_1_n_n_wf : DotDims.WF S128x4096 S4096x11008 S128x11008 [1] [0] [0] [1] [] []

variable [Facts₀]

def dot_S128x4096_S4096x11008_S128x11008_1_0_0_1_n_n : DotDims S128x4096 S4096x11008 S128x11008 where
  lhsContracting := [1]
  rhsContracting := [0]
  lhsNonContracting := [0]
  rhsNonContracting := [1]
  lhsBatch := []
  rhsBatch := []
  wf := dot_S128x4096_S4096x11008_S128x11008_1_0_0_1_n_n_wf

class Facts : Prop extends Facts₀ where

variable [Facts]
-- ==== Proof.Spec.lean ====
/-
  The mathematics both programs compute, stated once and free of either program's text.

  A packed word holds eight 4-bit weights; weight j of word q is (q >>ₛ 4j) AND 15 (an arithmetic shift by an amount
  below the word's width, so the same word on the vector unit and on the host). Feature k of the 4096 input features
  lives in word row k / 8 at nibble k % 8 and in quantization group k / 128, and its dequantized weight for output
  column n is   scale[k / 128, n] · float(nibble) − zero[k / 128, n].
  The result is x · W: entry (b, n) is the sum over the 4096 features k of x[b, k] times that weight.
-/
import Idealize.ShloMosaic.PureOps.Ideal
import Idealize.ShloMosaic.Lib.ValueIdx

noncomputable section

namespace Cert.Gptq

open Idealize.ShloMosaic Idealize.ShloMosaic.ValueIdx

/-- The bit offset of nibble `j` inside its packed word, as a word: `j · 4`. -/
def shiftOf (j : Fin 8) : BitVec 32 := IntOp.muli (BitVec.ofNat 32 j.val) 4#32

/-- Every nibble offset (0, 4, …, 28) is below the word's width. -/
theorem shiftOf_toNat_lt (j : Fin 8) : (shiftOf j).toNat < 32 := by
  fin_cases j <;> decide

/-- The same offset spelt `0 + 4 · j`. -/
theorem zero_add_four_mul (j : Fin 8) :
    IntOp.addi 0#32 (IntOp.muli 4#32 (BitVec.ofNat 32 j.val)) = shiftOf j := by
  fin_cases j <;> decide

/-- Nibble `j` of the packed word `q`: shift right (arithmetically) by `4 j`, keep the low four bits. -/
def nibble (q : BitVec 32) (j : Fin 8) : BitVec 32 := IntOp.andi (IntOp.shrsi .vector q (shiftOf j)) 15#32

/-- A shift by an amount below the width is the same word on the host as on the vector unit. -/
theorem nibble_host (q : BitVec 32) (j : Fin 8) :
    IntOp.andi (IntOp.shrsi .host q (shiftOf j)) 15#32 = nibble q j := by
  unfold nibble IntOp.shrsi
  rw [if_pos (shiftOf_toNat_lt j), if_pos (shiftOf_toNat_lt j)]

variable {F : FTy → Type} [FloatOps F]

/-- One dequantized weight: `scale · float(nibble j of q) − zero`. -/
def deq (s : F .f32) (q : BitVec 32) (j : Fin 8) (z : F .f32) : F .f32 :=
  FloatOps.subf (FloatOps.mulf s (FloatOps.sitofp .f32 (nibble q j))) z

/-- The dequantized weight of feature `k` for column `n`, of a weight array with `N` columns given as the packed
    words, the per-group scales and the per-group zeros. -/
def weightAt {N : Nat} (qw : (⟨2, ![512, N]⟩ : Shape).Idx → BitVec 32) (sc zr : (⟨2, ![32, N]⟩ : Shape).Idx → F .f32)
    (k : Fin 4096) (n : Fin N) : F .f32 :=
  deq (sc (ix2 (⟨k.val / 128, by have := k.isLt; omega⟩ : Fin 32) n))
    (qw (ix2 (⟨k.val / 8, by have := k.isLt; omega⟩ : Fin 512) n))
    ⟨k.val % 8, Nat.mod_lt _ (by decide)⟩
    (zr (ix2 (⟨k.val / 128, by have := k.isLt; omega⟩ : Fin 32) n))

/-- The product `x · W` over the extended reals: entry (b, n) is the sum over the features of `x[b, k]` times the
    dequantized weight of feature `k` for column `n`. -/
def result (x : (⟨2, ![128, 4096]⟩ : Shape).Idx → EReal) (qw : (⟨2, ![512, 11008]⟩ : Shape).Idx → BitVec 32)
    (sc zr : (⟨2, ![32, 11008]⟩ : Shape).Idx → EReal) : (⟨2, ![128, 11008]⟩ : Shape).Idx → EReal :=
  fun i => ∑ k : Fin 4096, x (ix2 (⟨(i 0).val, (i 0).isLt⟩ : Fin 128) k)
    * (weightAt (F := Ideal) qw sc zr k (⟨(i 1).val, (i 1).isLt⟩ : Fin 11008) : EReal)

end Cert.Gptq

end
-- ==== Proof.Slab.lean ====
/-
  One quantization group inside the kernel body. The body takes sixteen rows of packed words (one column block wide),
  one row of scales and one row of zeros, spreads every word over eight lanes shifted right by 0, 4, …, 28 bits, keeps the
  low four bits, lays the [16, 8, 256] nibbles out as [128, 256] (row 8·r + j is nibble j of word row r), converts them to
  floats and applies  scale · w − zero  column by column. Read at row p and column n the slab is therefore
        scale[n] · float(nibble (p % 8) of word (p / 8, n)) − zero[n],
  narrowed to the matmul's input format.
-/
import proofs.«409712_j15479062135381_3_alg».proof.Proof.Gen.KernelIdeal.Skeleton
import proofs.«409712_j15479062135381_3_alg».proof.Proof.Spec
import Idealize.ShloMosaic.Lib.Pipeline.Value
import Idealize.ShloMosaic.Lib.ValueLayout

noncomputable section

namespace Cert.KernelIdeal.Dq

open Cert.KernelIdeal Cert.KernelIdeal.Gen Idealize.ShloMosaic Idealize.ShloMosaic.ValueIdx Cert.Gptq

variable {F : FTy → Type} [FloatOps F]

/-- The lane shifts: the iota along the middle axis times four, spread over the [16, 8, 256] block, is at lane `j` the
    nibble offset `4 j`. -/
theorem shifts_apply (a : Fin 16) (j : Fin 8) (n : Fin 256) :
    broadcastTo S16x8x256 k0_pay2 broadcasts_S1x8x1_S16x8x256 (ix3 a j n) = shiftOf j := by
  refine (broadcastTo_apply _ _ (ix3 a j n) (ix3 (0 : Fin 1) j (0 : Fin 1)) (fun ax => ?_)).trans ?_
  · match ax with
    | ⟨0, _⟩ => show 0 = if (1 : Nat) = 1 then 0 else a.val; rw [if_pos rfl]
    | ⟨1, _⟩ => show j.val = if (8 : Nat) = 1 then 0 else j.val; rw [if_neg (by decide)]
    | ⟨2, _⟩ => show 0 = if (1 : Nat) = 1 then 0 else n.val; rw [if_pos rfl]
  · show IntOp.muli (BitVec.ofNat 32 (0 * 8 + j.val)) 4#32 = shiftOf j
    rw [Nat.zero_mul, Nat.zero_add]; rfl

/-- The packed words spread over the eight lanes: every lane of word row `a` holds the word itself. -/
theorem words_apply (q : Vec F S16x256 .i32) (a : Fin 16) (j : Fin 8) (n : Fin 256) :
    broadcastTo S16x8x256 (shapeCast S16x1x256 q shapeCasts_S16x256_S16x1x256) broadcasts_S16x1x256_S16x8x256 (ix3 a j n)
      = q (ix2 a n) := by
  refine (broadcastTo_apply _ _ (ix3 a j n) (ix3 a (0 : Fin 1) n) (fun ax => ?_)).trans ?_
  · match ax with
    | ⟨0, _⟩ => show a.val = if (16 : Nat) = 1 then 0 else a.val; rw [if_neg (by decide)]
    | ⟨1, _⟩ => show 0 = if (1 : Nat) = 1 then 0 else j.val; rw [if_pos rfl]
    | ⟨2, _⟩ => show n.val = if (256 : Nat) = 1 then 0 else n.val; rw [if_neg (by decide)]
  · exact shapeCast_apply q _ (ix3 a (0 : Fin 1) n) (ix2 a n) (by
      rw [Shape.rowMajor_val_two, Shape.rowMajor_val_three]
      show a.val * 256 + n.val = (a.val * 1 + 0) * 256 + n.val
      omega)

/-- The [16, 8, 256] nibbles laid out as [128, 256]: row `p` is nibble `p % 8` of word row `p / 8`. -/
theorem nibbles_apply (q : Vec F S16x256 .i32) (p : Fin 128) (n : Fin 256) :
    shapeCast S128x256
        (andi (shrsi (broadcastTo S16x8x256 (shapeCast S16x1x256 q shapeCasts_S16x256_S16x1x256) broadcasts_S16x1x256_S16x8x256)
                (broadcastTo S16x8x256 k0_pay2 broadcasts_S1x8x1_S16x8x256))
          (broadcast S16x8x256 15#32))
        shapeCasts_S16x8x256_S128x256 (ix2 p n)
      = nibble (q (ix2 (⟨p.val / 8, by have := p.isLt; omega⟩ : Fin 16) n)) ⟨p.val % 8, Nat.mod_lt _ (by decide)⟩ := by
  refine (shapeCast_apply _ _ (ix2 p n)
    (ix3 (⟨p.val / 8, by have := p.isLt; omega⟩ : Fin 16) (⟨p.val % 8, Nat.mod_lt _ (by decide)⟩ : Fin 8) n) (by
      rw [Shape.rowMajor_val_two, Shape.rowMajor_val_three]
      show (p.val / 8 * 8 + p.val % 8) * 256 + n.val = p.val * 256 + n.val
      have := p.isLt; omega)).trans ?_
  show IntOp.andi (IntOp.shrsi .vector
      (broadcastTo S16x8x256 (shapeCast S16x1x256 q shapeCasts_S16x256_S16x1x256) broadcasts_S16x1x256_S16x8x256 (ix3 _ _ n))
      (broadcastTo S16x8x256 k0_pay2 broadcasts_S1x8x1_S16x8x256 (ix3 _ _ n))) 15#32 = _
  rw [words_apply, shifts_apply]
  rfl

/-- THE SLAB AT AN ENTRY: row `p`, column `n` of one group's dequantized block is
    `scale[n] · float(nibble (p % 8) of word (p / 8, n)) − zero[n]`, narrowed. -/
theorem slab_apply (q : Vec F S16x256 .i32) (s z : Vec F S1x256 .f32) (p : Fin 128) (n : Fin 256) :
    k0_pay3 q s z (ix2 p n)
      = FloatOps.truncf .bf16 bitsLt_bf16_f32
          (deq (s (ix2 (0 : Fin 1) n)) (q (ix2 (⟨p.val / 8, by have := p.isLt; omega⟩ : Fin 16) n))
            ⟨p.val % 8, Nat.mod_lt _ (by decide)⟩ (z (ix2 (0 : Fin 1) n))) := by
  unfold k0_pay3
  rw [shapeCast_self]
  show FloatOps.truncf .bf16 bitsLt_bf16_f32 (FloatOps.subf (FloatOps.mulf
      (broadcastTo S128x256 (shapeCast S1x256 (shapeCast S256 s shapeCasts_S1x256_S256) shapeCasts_S256_S1x256) broadcasts_S1x256_S128x256 (ix2 p n))
      (FloatOps.sitofp .f32 (shapeCast S128x256 _ shapeCasts_S16x8x256_S128x256 (ix2 p n))))
      (broadcastTo S128x256 (shapeCast S1x256 (shapeCast S256 z shapeCasts_S1x256_S256) shapeCasts_S256_S1x256) broadcasts_S1x256_S128x256 (ix2 p n))) = _
  rw [shapeCast_shapeCast, shapeCast_shapeCast, broadcastTo_1b_ab_apply, broadcastTo_1b_ab_apply, nibbles_apply]
  rfl

end Cert.KernelIdeal.Dq

end
-- ==== Proof.BodyValue.lean ====
/-
  What one grid point's body leaves in its output block. The body fills a [4096, 256] scratch by 32 stores of [128, 256]
  slabs (group g at rows 128 g …), reads the whole scratch back, and stores x · scratch. Each slab is the block of ONE
  function of the scratch index (row k, column n ↦ the dequantized weight of feature k for the block's column n, narrowed),
  and the 32 slabs tile the scratch, so the scratch read back is that function, and the output block is the product of the
  x block with it.
-/
import proofs.«409712_j15479062135381_3_alg».proof.Proof.Gen.KernelIdeal.Frame
import proofs.«409712_j15479062135381_3_alg».proof.Proof.Slab
import Idealize.ShloMosaic.Lib.Pipeline.Value
import Idealize.ShloMosaic.Lib.Tactic

set_option maxRecDepth 16384

noncomputable section

namespace Cert.KernelIdeal.Dq

open Cert.KernelIdeal Cert.KernelIdeal.Gen Idealize.ShloMosaic Idealize.ShloMosaic.TcCoe Idealize.ShloMosaic.ValueIdx Cert.Gptq

variable {F : FTy → Type} [FloatOps F]

theorem hz : (![0, 0] : Fin 2 → Nat) = fun _ => 0 := funext fun a => by fin_cases a <;> rfl

/-- The dequantized weight block of one grid point: at (k, n) the weight of feature `k` for the block's column `n`, from
    the point's blocks of packed words, scales and zeros, narrowed to the matmul's input format. -/
def blockW (x1 : Vec F S512x256 .i32) (x2 x3 : Vec F S32x256 .f32) : Vec F S4096x256 .bf16 := fun y =>
  FloatOps.truncf .bf16 bitsLt_bf16_f32
    (weightAt (N := 256) x1 x2 x3 (⟨(y 0).val, (y 0).isLt⟩ : Fin 4096) (⟨(y 1).val, (y 1).isLt⟩ : Fin 256))

/-- Group `g`'s slab, computed from word rows 16 g …, scale row g and zero row g, is the block of `blockW` at rows 128 g …:
    row 128 g + p is in group g, its word row is 16 g + p / 8 and its nibble p % 8. -/
theorem group_piece (x1 : Vec F S512x256 .i32) (x2 x3 : Vec F S32x256 .f32) (g oq ow : Nat) (hg : g < 32)
    (hq : oq = 16 * g) (hw : ow = 128 * g)
    (inbq : ∀ a, (![oq, 0] : Fin 2 → Nat) a + S16x256.size a ≤ S512x256.size a)
    (inbs : ∀ a, (![g, 0] : Fin 2 → Nat) a + S1x256.size a ≤ S32x256.size a)
    (inbw : ∀ a, (![ow, 0] : Fin 2 → Nat) a + S128x256.size a ≤ S4096x256.size a)
    (x : S128x256.Idx) :
    k0_pay3 (View.ld x1 (Rect.unit (s := S512x256) ![oq, 0] S16x256.size inbq))
        (View.ld x2 (Rect.unit (s := S32x256) ![g, 0] S1x256.size inbs))
        (View.ld x3 (Rect.unit (s := S32x256) ![g, 0] S1x256.size inbs)) x
      = blockW x1 x2 x3 ((Rect.unit (s := S4096x256) ![ow, 0] S128x256.size inbw).emb x) := by
  obtain ⟨p, n, rfl⟩ : ∃ (p : Fin 128) (n : Fin 256), x = ix2 p n := ⟨x 0, x 1, eq_ix2 x⟩
  subst hq hw
  rw [slab_apply]
  unfold blockW weightAt View.ld
  have hp := p.isLt
  have e2 : (Rect.unit (s := S32x256) ![g, 0] S1x256.size inbs).idx (ix2 (0 : Fin 1) n)
      = ix2 (⟨(⟨((Rect.unit (s := S4096x256) ![128 * g, 0] S128x256.size inbw).emb (ix2 p n) 0).val, ((Rect.unit (s := S4096x256) ![128 * g, 0] S128x256.size inbw).emb (ix2 p n) 0).isLt⟩ : Fin 4096).val / 128, by
            show (128 * g + 1 * p.val) / 128 < 32; omega⟩ : Fin 32)
          (⟨((Rect.unit (s := S4096x256) ![128 * g, 0] S128x256.size inbw).emb (ix2 p n) 1).val, ((Rect.unit (s := S4096x256) ![128 * g, 0] S128x256.size inbw).emb (ix2 p n) 1).isLt⟩ : Fin 256) := by
    funext a; apply Fin.ext
    match a with
    | ⟨0, _⟩ => show g + 1 * 0 = (128 * g + 1 * p.val) / 128; omega
    | ⟨1, _⟩ => rfl
  have e1 : (Rect.unit (s := S512x256) ![16 * g, 0] S16x256.size inbq).idx (ix2 (⟨p.val / 8, by omega⟩ : Fin 16) n)
      = ix2 (⟨(⟨((Rect.unit (s := S4096x256) ![128 * g, 0] S128x256.size inbw).emb (ix2 p n) 0).val, ((Rect.unit (s := S4096x256) ![128 * g, 0] S128x256.size inbw).emb (ix2 p n) 0).isLt⟩ : Fin 4096).val / 8, by
            show (128 * g + 1 * p.val) / 8 < 512; omega⟩ : Fin 512)
          (⟨((Rect.unit (s := S4096x256) ![128 * g, 0] S128x256.size inbw).emb (ix2 p n) 1).val, ((Rect.unit (s := S4096x256) ![128 * g, 0] S128x256.size inbw).emb (ix2 p n) 1).isLt⟩ : Fin 256) := by
    funext a; apply Fin.ext
    match a with
    | ⟨0, _⟩ => show 16 * g + 1 * (p.val / 8) = (128 * g + 1 * p.val) / 8; omega
    | ⟨1, _⟩ => rfl
  have e3 : (⟨p.val % 8, Nat.mod_lt _ (by decide)⟩ : Fin 8)
      = ⟨(⟨((Rect.unit (s := S4096x256) ![128 * g, 0] S128x256.size inbw).emb (ix2 p n) 0).val, ((Rect.unit (s := S4096x256) ![128 * g, 0] S128x256.size inbw).emb (ix2 p n) 0).isLt⟩ : Fin 4096).val % 8, Nat.mod_lt _ (by decide)⟩ := by
    apply Fin.ext
    show p.val % 8 = (128 * g + 1 * p.val) % 8; omega
  rw [e1, e2, e3]

/-- THE BODY'S VALUE: on the point's blocks `x0` (x), `x1` (packed words), `x2` (scales), `x3` (zeros) the body leaves in the
    output block the product of `x0` with the dequantized weight block (`k0_pay1` is the body's own matmul into zero). The
    32 stores are blocks of `blockW` (`group_piece`) and tile the scratch, so the read-back is `blockW`. -/
theorem out_eq (c : Dev nD) (i : grid0.Coords) (arg1 : Memref sig .tc .vmem S128x4096 .bf16) (harg1 : arg1.IsWhole) (arg2 : Memref sig .tc .vmem S512x256 .i32) (harg2 : arg2.IsWhole) (arg3 : Memref sig .tc .vmem S32x256 .f32) (harg3 : arg3.IsWhole) (arg4 : Memref sig .tc .vmem S32x256 .f32) (harg4 : arg4.IsWhole) (arg5 : Memref sig .tc .vmem S128x256 .f32) (harg5 : arg5.IsWhole) (arg6 : Memref sig .tc .vmem S4096x256 .bf16) (harg6 : arg6.IsWhole)
    (x0 : Vec F S128x4096 .bf16) (x1 : Vec F S512x256 .i32) (x2 : Vec F S32x256 .f32) (x3 : Vec F S32x256 .f32) :
    out0_A_4 c i arg1 harg1 arg2 harg2 arg3 harg3 arg4 harg4 arg5 harg5 arg6 harg6 x0 x1 x2 x3
      = k0_pay1 x0 (blockW x1 x2 x3) := by
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S128x4096) hz]
  refine congrArg (k0_pay1 x0) ?_
  rw [View.readCov_eq_canon_ld _ _ _ (View.cover_of_tiledL (s := S4096x256) _ S128x256.size (by sl_kernel_rfl)),
    View.ld_unit_zero (S := S4096x256) hz]
  funext y
  refine View.canon_apply_of_pieces (blockW x1 x2 x3) _ ?_ y (View.cover_of_tiledL (s := S4096x256) _ S128x256.size (by sl_kernel_rfl) y)
  intro pc hpc x
  simp only [List.mem_cons, List.not_mem_nil, or_false] at hpc
  -- `pc` is one of the 32 slabs: peel the alternatives one at a time, each a block of `blockW` by `group_piece`
  repeat
    rcases hpc with rfl | hpc
    · exact group_piece x1 x2 x3 _ _ _ (by decide) (by rfl) (by rfl) (by decide) (by decide) (by decide) x

end Cert.KernelIdeal.Dq

end
-- ==== Proof.BlockSum.lean ====
/-
  The body's matmul read at an entry, over the extended reals: the [128, 4096] block times the [4096, 256] block into a
  zero accumulator is, at (b, n), the sum over the 4096 features k of x[b, k] · W[k, n] — no rounding and no chunk order
  is left at the ideal values.
-/
import proofs.«409712_j15479062135381_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Dq

open Cert.KernelIdeal Cert.KernelIdeal.Gen Idealize.ShloMosaic Idealize.ShloMosaic.ValueIdx

/-- The left operand is read at the output's row … -/
theorem lhs_dot_0 (i : S128x256.Idx) (q : dot_S128x4096_S4096x256_S128x256_1_0_0_1_n_n.contr.Idx) :
    (dot_S128x4096_S4096x256_S128x256_1_0_0_1_n_n.lhsIdx i q 0).val = (i 0).val := by
  unfold DotDims.lhsIdx
  rw [dif_neg (show ¬(0 : Fin S128x4096.rank) ∈ dot_S128x4096_S4096x256_S128x256_1_0_0_1_n_n.lhsBatch by decide), dif_pos (show (0 : Fin S128x4096.rank) ∈ dot_S128x4096_S4096x256_S128x256_1_0_0_1_n_n.lhsNonContracting by decide)]
  rfl
/-- … and at the contraction index; -/
theorem lhs_dot_1 (i : S128x256.Idx) (q : dot_S128x4096_S4096x256_S128x256_1_0_0_1_n_n.contr.Idx) :
    (dot_S128x4096_S4096x256_S128x256_1_0_0_1_n_n.lhsIdx i q 1).val = (q ⟨0, by decide⟩).val :=
  dot_S128x4096_S4096x256_S128x256_1_0_0_1_n_n.lhsIdx_val_of_single rfl i q
/-- the right operand at the contraction index … -/
theorem rhs_dot_0 (i : S128x256.Idx) (q : dot_S128x4096_S4096x256_S128x256_1_0_0_1_n_n.contr.Idx) :
    (dot_S128x4096_S4096x256_S128x256_1_0_0_1_n_n.rhsIdx i q 0).val = (q ⟨0, by decide⟩).val :=
  dot_S128x4096_S4096x256_S128x256_1_0_0_1_n_n.rhsIdx_val_of_single rfl i q
/-- … and at the output's column. -/
theorem rhs_dot_1 (i : S128x256.Idx) (q : dot_S128x4096_S4096x256_S128x256_1_0_0_1_n_n.contr.Idx) :
    (dot_S128x4096_S4096x256_S128x256_1_0_0_1_n_n.rhsIdx i q 1).val = (i 1).val := by
  unfold DotDims.rhsIdx
  rw [dif_neg (show ¬(1 : Fin S4096x256.rank) ∈ dot_S128x4096_S4096x256_S128x256_1_0_0_1_n_n.rhsBatch by decide), dif_pos (show (1 : Fin S4096x256.rank) ∈ dot_S128x4096_S4096x256_S128x256_1_0_0_1_n_n.rhsNonContracting by decide)]
  rfl

/-- THE BLOCK PRODUCT AT AN ENTRY: `(x · W)[b, n] = ∑ k, x[b, k] · W[k, n]`. -/
theorem product_apply (x : FVec Ideal S128x4096 .bf16) (W : FVec Ideal S4096x256 .bf16) (b : Fin 128) (n : Fin 256) :
    k0_pay1 (F := Ideal) x W (ix2 b n) = ∑ k : Fin 4096, x (ix2 b k) * W (ix2 k n) := by
  unfold k0_pay1
  rw [shapeCast_self]
  show FloatOps.matmul dot_S128x4096_S4096x256_S128x256_1_0_0_1_n_n none x W (constant S128x256 .f32 0x00000000#32) (ix2 b n) = _
  rw [Ideal.matmul_constant_zero_apply, ← Equiv.sum_comp (contrEquiv1 dot_S128x4096_S4096x256_S128x256_1_0_0_1_n_n 4096 rfl rfl).symm]
  refine Finset.sum_congr rfl fun k _ => ?_
  have hk := contrEquiv1_symm_val dot_S128x4096_S4096x256_S128x256_1_0_0_1_n_n 4096 rfl rfl k
  have el : dot_S128x4096_S4096x256_S128x256_1_0_0_1_n_n.lhsIdx (ix2 b n) ((contrEquiv1 dot_S128x4096_S4096x256_S128x256_1_0_0_1_n_n 4096 rfl rfl).symm k) = ix2 b k := funext fun a => Fin.ext (by
    match a with
    | ⟨0, _⟩ => exact lhs_dot_0 _ _
    | ⟨1, _⟩ => exact (lhs_dot_1 _ _).trans hk)
  have er : dot_S128x4096_S4096x256_S128x256_1_0_0_1_n_n.rhsIdx (ix2 b n) ((contrEquiv1 dot_S128x4096_S4096x256_S128x256_1_0_0_1_n_n 4096 rfl rfl).symm k) = ix2 k n := funext fun a => Fin.ext (by
    match a with
    | ⟨0, _⟩ => exact (rhs_dot_0 _ _).trans hk
    | ⟨1, _⟩ => exact rhs_dot_1 _ _)
  rw [el, er]

end Cert.KernelIdeal.Dq

end
-- ==== Proof.KernelValue.lean ====
/-
  The kernel's result array. At grid point t the pipeline hands the body the whole of x (narrowed by the host, the identity
  over the extended reals) and column block t (256 columns) of the packed words, the scales and the zeros; the body leaves
  x · (dequantized block) in the output's block t; and the 43 output blocks tile the [128, 11008] result. Column n of block t
  is column 256 t + n of every array, so block t of the output is block t of `result`, and the array ends at `result`.
-/
import proofs.«409712_j15479062135381_3_alg».proof.Proof.Gen.KernelIdeal.Value
import proofs.«409712_j15479062135381_3_alg».proof.Proof.BodyValue
import proofs.«409712_j15479062135381_3_alg».proof.Proof.BlockSum
import Idealize.ShloMosaic.Lib.Pipeline.Value
import Idealize.ShloMosaic.Lib.StableHlo.Run
import Idealize.ShloMosaic.Lib.ValueIdx

noncomputable section

namespace Cert.KernelIdeal.Dq

open Cert.KernelIdeal Cert.KernelIdeal.Gen Idealize.ShloMosaic Idealize.ShloMosaic.TcCoe Idealize.SL.Sem
open Idealize.ShloMosaic.ValueIdx Cert.Gptq
open Idealize.ShloMosaic.Pipeline (Dat)

variable (m : (ℓ : Loc nD τ sig) → Buf (Elt Ideal) ℓ) (ρ : Dev nD → PrngReg)

/-- The printed index maps, decided over the 43 grid points: x's one block never moves; the packed words, the scales, the
    zeros and the output all sit at row block 0 and at the column block of the output, which is below 43. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = 0 ∧ win0_4.index t (1 : Fin 2) ≤ 42 :=
  (by decide +kernel : ∀ t : Fin grid0.N, _)

/-- Every column block of the result is some point's. -/
theorem idx_onto : ∀ q : Fin 43, ∃ t : Fin cfg0.N, win0_4.index t = ![0, q.val] :=
  (by decide +kernel : ∀ q : Fin 43, ∃ t : Fin grid0.N, win0_4.index t = ![0, q.val])

/-- The point's blocks, each at its literal type. -/
abbrev xblk (c : Dev nD) (t : Fin cfg0.N) : FVec Ideal S128x4096 .bf16 := iblk m c 0 t
abbrev qblk (c : Dev nD) (t : Fin cfg0.N) : Vec Ideal S512x256 .i32 := iblk m c 1 t
abbrev sblk (c : Dev nD) (t : Fin cfg0.N) : Vec Ideal S32x256 .f32 := iblk m c 2 t
abbrev zblk (c : Dev nD) (t : Fin cfg0.N) : Vec Ideal S32x256 .f32 := iblk m c 3 t

/-- The region finds x narrowed by the host: over the extended reals, x itself. -/
theorem V_x (c : Dev nD) (i : S128x4096.Idx) : V m c main_v0 i = (m ((c : Thread nD τ).loc main_arg0)) i := by
  have e : V m c main_v0 = truncf (F := Ideal) (s := S128x4096) .bf16 (m ((c : Thread nD τ).loc main_arg0)) bitsLt_bf16_f32 := by
    dsimp only [V, hostOps0]; after_results
  rw [e]; rfl

/-- x's block is all of x. -/
theorem xblk_apply (c : Dev nD) (t : Fin cfg0.N) (b : Fin 128) (k : Fin 4096) :
    xblk m c t (ix2 b k) = (m ((c : Thread nD τ).loc main_arg0)) (ix2 b k) := by
  obtain ⟨e0, e1, -⟩ := idx_facts t
  unfold xblk iblk
  rw [View.read_apply]
  show V m c main_v0 _ = _
  rw [V_x]
  refine congrArg (m ((c : Thread nD τ).loc main_arg0)) (funext fun a => Fin.ext ?_)
  match a with
  | ⟨0, _⟩ => show win0_0.index t (0 : Fin 2) * 128 + 1 * b.val = b.val; omega
  | ⟨1, _⟩ => show win0_0.index t (1 : Fin 2) * 4096 + 1 * k.val = k.val; omega

/-- Column `n` of the point's block of packed words is column `N` of the array, `N` the block's column offset plus `n`. -/
theorem qblk_apply (c : Dev nD) (t : Fin cfg0.N) (r : Fin 512) (n : Fin 256) (N : Fin 11008)
    (hN : N.val = win0_4.index t (1 : Fin 2) * 256 + 1 * n.val) :
    qblk m c t (ix2 r n) = (m ((c : Thread nD τ).loc main_arg1)) (ix2 r N) := by
  obtain ⟨-, -, e0, e1, -⟩ := idx_facts t
  unfold qblk iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 512 + 1 * r.val = r.val; omega
  | ⟨1, _⟩ => show win0_1.index t (1 : Fin 2) * 256 + 1 * n.val = N.val; omega

/-- The same for the scales … -/
theorem sblk_apply (c : Dev nD) (t : Fin cfg0.N) (g : Fin 32) (n : Fin 256) (N : Fin 11008)
    (hN : N.val = win0_4.index t (1 : Fin 2) * 256 + 1 * n.val) :
    sblk m c t (ix2 g n) = (m ((c : Thread nD τ).loc main_arg2)) (ix2 g N) := by
  obtain ⟨-, -, -, -, e0, e1, -⟩ := idx_facts t
  unfold sblk iblk
  rw [View.read_apply]
  show V m c main_arg2 _ = _
  rw [V_main_arg2]
  refine congrArg (m ((c : Thread nD τ).loc main_arg2)) (funext fun a => Fin.ext ?_)
  match a with
  | ⟨0, _⟩ => show win0_2.index t (0 : Fin 2) * 32 + 1 * g.val = g.val; omega
  | ⟨1, _⟩ => show win0_2.index t (1 : Fin 2) * 256 + 1 * n.val = N.val; omega

/-- … and the zeros. -/
theorem zblk_apply (c : Dev nD) (t : Fin cfg0.N) (g : Fin 32) (n : Fin 256) (N : Fin 11008)
    (hN : N.val = win0_4.index t (1 : Fin 2) * 256 + 1 * n.val) :
    zblk m c t (ix2 g n) = (m ((c : Thread nD τ).loc main_arg3)) (ix2 g N) := by
  obtain ⟨-, -, -, -, -, -, e0, e1, -⟩ := idx_facts t
  unfold zblk iblk
  rw [View.read_apply]
  show V m c main_arg3 _ = _
  rw [V_main_arg3]
  refine congrArg (m ((c : Thread nD τ).loc main_arg3)) (funext fun a => Fin.ext ?_)
  match a with
  | ⟨0, _⟩ => show win0_3.index t (0 : Fin 2) * 32 + 1 * g.val = g.val; omega
  | ⟨1, _⟩ => show win0_3.index t (1 : Fin 2) * 256 + 1 * n.val = N.val; omega

/-- The product the certificate claims, of the argument arrays as launched. -/
abbrev product (c : Dev nD) : Buf (Elt Ideal) ((c : Thread nD τ).loc main_v1) :=
  result (m ((c : Thread nD τ).loc main_arg0)) (m ((c : Thread nD τ).loc main_arg1)) (m ((c : Thread nD τ).loc main_arg2)) (m ((c : Thread nD τ).loc main_arg3))

/-- WHAT POINT `t` WRITES BACK is block `t` of the product: entry (b, n) of the body's block is the sum over the features
    of x[b, k] times the dequantized weight of feature k for the block's column n, which is column 256 t + n of the arrays. -/
theorem flushed_eq (c : Dev nD) (t : Fin cfg0.N) :
    (dats m 0 c).flushed 4 t = ((cfg0.win 4).blk t).view.read (Elt Ideal) (product m c) := by
  obtain ⟨-, -, -, -, -, -, -, -, e0, e1⟩ := idx_facts t
  rw [Value.flushed4_A, out_eq]
  funext j
  obtain ⟨b, n, rfl⟩ : ∃ (b : Fin 128) (n : Fin 256), j = ix2 b n := ⟨j 0, j 1, eq_ix2 j⟩
  show k0_pay1 (F := Ideal) (xblk m c t) (blockW (qblk m c t) (sblk m c t) (zblk m c t)) (ix2 b n)
    = product m c (((cfg0.win 4).blk t).view.emb (ix2 b n))
  rw [product_apply]
  unfold product result
  refine Finset.sum_congr rfl fun k _ => ?_
  have hb : (⟨(((cfg0.win 4).blk t).view.emb (ix2 b n) 0).val, (((cfg0.win 4).blk t).view.emb (ix2 b n) 0).isLt⟩ : Fin 128) = b := by
    apply Fin.ext
    show win0_4.index t (0 : Fin 2) * 128 + 1 * b.val = b.val
    omega
  have hN : (⟨(((cfg0.win 4).blk t).view.emb (ix2 b n) 1).val, (((cfg0.win 4).blk t).view.emb (ix2 b n) 1).isLt⟩ : Fin 11008).val
      = win0_4.index t (1 : Fin 2) * 256 + 1 * n.val := rfl
  rw [hb, xblk_apply]
  congr 1
  show FloatOps.truncf .bf16 bitsLt_bf16_f32 (weightAt (F := Ideal) (N := 256) (qblk m c t) (sblk m c t) (zblk m c t) k n) = _
  unfold weightAt
  rw [qblk_apply m c t _ n _ hN, sblk_apply m c t _ n _ hN, zblk_apply m c t _ n _ hN]
  rfl

/-- An index of the result is in point `t`'s block iff each coordinate is in the block's range on its axis. -/
theorem mem_blk (t : Fin cfg0.N) (i : S128x11008.Idx) :
    i ∈ ((cfg0.win 4).blk t).view.set ↔ ∀ a : Fin 2, win0_4.index t a * S128x256.size a ≤ (i a).val ∧ (i a).val < win0_4.index t a * S128x256.size a + S128x256.size a := by
  show i ∈ ((View.whole main_v1).slice (win0_4.rect t)).set ↔ _
  rw [View.set_slice_whole, Rect.mem_set_unit]
  exact Iff.rfl

/-- THE RESULT ARRAY after the run is the product: column n is covered by the point whose column block is n / 256. -/
theorem final (c : Dev nD) : (dats m 0 c).arrAt 4 cfg0.N = product m c :=
  (dats m 0 c).arrAt_eq_of_cover 4 (product m c) (fun t _ => flushed_eq m c t) fun i => by
    have h0 : (i 0).val < 128 := (i 0).isLt
    have h1 : (i 1).val < 11008 := (i 1).isLt
    obtain ⟨t, ht⟩ := idx_onto ⟨(i 1).val / 256, by omega⟩
    have q0 : win0_4.index t (0 : Fin 2) = 0 := congrFun ht 0
    have q1 : win0_4.index t (1 : Fin 2) = (i 1).val / 256 := congrFun ht 1
    refine ⟨t, flush0_4 t, ?_⟩
    rw [mem_blk]
    intro a
    match a with
    | ⟨0, _⟩ => show win0_4.index t (0 : Fin 2) * 128 ≤ (i 0).val ∧ (i 0).val < win0_4.index t (0 : Fin 2) * 128 + 128; omega
    | ⟨1, _⟩ => show win0_4.index t (1 : Fin 2) * 256 ≤ (i 1).val ∧ (i 1).val < win0_4.index t (1 : Fin 2) * 256 + 256; omega

/-- The kernel's run, read: the result array at the product of the arguments as launched, the arguments unchanged. -/
theorem run : θ_run defs (onTc (τ := τ) (main (F := Ideal))) ⟨m, fun _ => 0, ρ⟩ fun r => ∀ c : Dev nD,
      r.2.mem ((c : Thread nD τ).loc main_v1) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Dq

end
-- ==== Proof.RefValue.lean ====
/-
  The reference, read at an entry. The host program unpacks the same nibbles over a [512, 8, 11008] array (word row r, lane j:
  the word shifted right by 0 + 4 j, low four bits), reshapes it to [32, 128, 11008] (group g, row p of the group), applies
  scale · w − zero by group, reshapes to [4096, 11008] and multiplies x by it. Row-major position is kept by both reshapes, so
  row k of the weight is group k / 128, word row k / 8, lane k % 8: exactly the weight `weightAt` names, and the product is
  `result`.
-/
import proofs.«409712_j15479062135381_3_alg».proof.Proof.Gen.ReferenceIdeal.Read
import proofs.«409712_j15479062135381_3_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Gptq

variable {F : FTy → Type} [FloatOps F]

/-- THE REFERENCE'S WEIGHT AT AN ENTRY: row `k`, column `n` of the dequantized [4096, 11008] array is the dequantized weight
    of feature `k` for column `n`. -/
theorem weight_apply (x1 : (⟨S512x11008, .i32⟩ : BufTy).Contents (Elt F)) (x2 x3 : (⟨S32x11008, .f32⟩ : BufTy).Contents (Elt F))
    (k : Fin 4096) (n : Fin 11008) :
    val_main_v20 (F := F) x1 x2 x3 (ix2 k n) = weightAt (N := 11008) x1 x2 x3 k n := by
  have hk := k.isLt
  have hn := n.isLt
  -- the group's row of scales and of zeros
  have eg : idx_main_v14 (idx_main_v15 (idx_main_v20 (ix2 k n))) = ix2 (⟨k.val / 128, by omega⟩ : Fin 32) n := by
    funext a; apply Fin.ext
    match a with
    | ⟨0, _⟩ => show (k.val * 11008 + n.val) / 1409024 = k.val / 128; omega
    | ⟨1, _⟩ => show (k.val * 11008 + n.val) % 11008 = n.val; omega
  have eg' : idx_main_v17 (idx_main_v18 (idx_main_v20 (ix2 k n))) = ix2 (⟨k.val / 128, by omega⟩ : Fin 32) n := by
    funext a; apply Fin.ext
    match a with
    | ⟨0, _⟩ => show (k.val * 11008 + n.val) / 1409024 = k.val / 128; omega
    | ⟨1, _⟩ => show (k.val * 11008 + n.val) % 11008 = n.val; omega
  -- the packed word
  have ew : idx_main_v5 (idx_main_v7 (idx_main_v12 (idx_main_v20 (ix2 k n)))) = ix2 (⟨k.val / 8, by omega⟩ : Fin 512) n := by
    funext a; apply Fin.ext
    match a with
    | ⟨0, _⟩ =>
      show (((k.val * 11008 + n.val) / 1409024 * 128 + (k.val * 11008 + n.val) / 11008 % 128) * 11008 + (k.val * 11008 + n.val) % 11008) / 88064 = k.val / 8
      omega
    | ⟨1, _⟩ =>
      show (((k.val * 11008 + n.val) / 1409024 * 128 + (k.val * 11008 + n.val) / 11008 % 128) * 11008 + (k.val * 11008 + n.val) % 11008) % 11008 = n.val
      omega
  -- the lane
  have ej : ((idx_main_v6 (idx_main_v8 (idx_main_v12 (idx_main_v20 (ix2 k n))))) 0).val
      = (⟨k.val % 8, Nat.mod_lt _ (by decide)⟩ : Fin 8).val := by
    show (((k.val * 11008 + n.val) / 1409024 * 128 + (k.val * 11008 + n.val) / 11008 % 128) * 11008 + (k.val * 11008 + n.val) % 11008) / 11008 % 8 = k.val % 8
    omega
  rw [val_main_v20_apply, val_main_v19_apply, val_main_v16_apply, val_main_v15_apply, val_main_v14_apply, val_main_v13_apply,
    val_main_v12_apply, val_main_v11_apply, val_main_v9_apply, val_main_v7_apply, val_main_v5_apply, val_main_v8_apply,
    val_main_v6_apply, val_main_v4_apply, val_main_v3_apply, val_main_c_0_apply, val_main_v2_apply, val_main_v1_apply,
    val_main_c_apply, val_main_v0_apply, val_main_v10_apply, val_main_c_1_apply, val_main_v18_apply, val_main_v17_apply]
  rw [eg, eg', ew, ej, zero_add_four_mul, nibble_host]
  rfl

/-- THE REFERENCE IS THE PRODUCT: its result at (b, n) is the sum over the features of x[b, k] times the dequantized weight. -/
theorem ref_eq (x0 : (⟨S128x4096, .f32⟩ : BufTy).Contents (Elt Ideal)) (x1 : (⟨S512x11008, .i32⟩ : BufTy).Contents (Elt Ideal))
    (x2 x3 : (⟨S32x11008, .f32⟩ : BufTy).Contents (Elt Ideal)) :
    val_main_v21 (F := Ideal) x0 x1 x2 x3 = result x0 x1 x2 x3 := by
  funext i
  rw [val_main_v21_apply]
  unfold result
  refine Finset.sum_congr rfl fun k _ => ?_
  have e1 : lidx_main_v21 i k = ix2 (⟨(i 0).val, (i 0).isLt⟩ : Fin 128) k :=
    funext fun a => Fin.ext (by match a with | ⟨0, _⟩ => rfl | ⟨1, _⟩ => rfl)
  have e2 : ridx_main_v21 i k = ix2 k (⟨(i 1).val, (i 1).isLt⟩ : Fin 11008) :=
    funext fun a => Fin.ext (by match a with | ⟨0, _⟩ => rfl | ⟨1, _⟩ => rfl)
  rw [e1, e2, weight_apply]

end Cert.ReferenceIdeal.RefValue

end
-- ==== Proof.lean ====
/-
  A 4-bit quantized linear layer: the kernel and its reference both compute  x · W,  W the [4096, 11008] weight
  dequantized from packed nibbles,  W[k, n] = scale[k / 128, n] · float(nibble k % 8 of word (k / 8, n)) − zero[k / 128, n].

  The kernel walks the 43 column blocks of 256 columns; at each it rebuilds its block of W in scratch, 128 rows (one group) per
  store, and multiplies the whole of x (narrowed, which is the identity over the extended reals) by it. The reference builds all
  of W by broadcasts and two reshapes and calls one dot_general. Over the extended reals a matmul into a zero accumulator and a
  dot_general are the same finite sum over the 4096 features, in the same order, of the same products, so the two results are
  equal entry by entry with no algebra beyond reading each side at an entry (`Cert.Gptq.result`): the shift amounts 0, 4, …, 28
  are below the word width, where the host's arithmetic shift and the vector unit's agree.

  The idealization rewrote nothing, so `preserves` is trivial; the three frames are the programs' runs.
-/
import proofs.«409712_j15479062135381_3_alg».proof.Defs
import proofs.«409712_j15479062135381_3_alg».proof.Proof.Gen.Kernel
import proofs.«409712_j15479062135381_3_alg».proof.Proof.Gen.Kernel.Skeleton
import proofs.«409712_j15479062135381_3_alg».proof.Proof.Gen.Kernel.Launch
import proofs.«409712_j15479062135381_3_alg».proof.Proof.Gen.Kernel.Points
import proofs.«409712_j15479062135381_3_alg».proof.Proof.Gen.Kernel.Frame
import proofs.«409712_j15479062135381_3_alg».proof.Proof.Gen.KernelIdeal
import proofs.«409712_j15479062135381_3_alg».proof.Proof.Gen.KernelIdeal.Skeleton
import proofs.«409712_j15479062135381_3_alg».proof.Proof.Gen.KernelIdeal.Launch
import proofs.«409712_j15479062135381_3_alg».proof.Proof.Gen.KernelIdeal.Points
import proofs.«409712_j15479062135381_3_alg».proof.Proof.Gen.KernelIdeal.Frame
import proofs.«409712_j15479062135381_3_alg».proof.Proof.Gen.ReferenceIdeal
import proofs.«409712_j15479062135381_3_alg».proof.Proof.Gen.Pre_finite_inputs
import proofs.«409712_j15479062135381_3_alg».proof.Proof.Gen.KernelIdeal.Value
import proofs.«409712_j15479062135381_3_alg».proof.Proof.Gen.ReferenceIdeal.Run
import proofs.«409712_j15479062135381_3_alg».proof.Proof.Gen.ReferenceIdeal.Read
import proofs.«409712_j15479062135381_3_alg».proof.Proof.KernelValue
import proofs.«409712_j15479062135381_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does its reading over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the product `x · W` of the arguments they were launched with, and the arguments agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Dq.product m c, Cert.KernelIdeal.Dq.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
